-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .bf16⟩
  | .hbm, ⟨5, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x8192 : Shape := ⟨2, ![4096, 8192]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x8192, .f32⟩
  | .hbm, ⟨5, _⟩ => ⟨S4096x8192, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  transposes_S4096x4096_S4096x4096_1_0 : S4096x4096.Transposes [1, 0] S4096x4096
  transposes_S8192x4096_S4096x8192_1_0 : S8192x4096.Transposes [1, 0] S4096x8192
  transposes_S4096x8192_S8192x4096_1_0 : S4096x8192.Transposes [1, 0] S8192x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.Affine.lean ====
/-
  The affine map both programs compute, as one function of the three argument arrays at the exact values:

      out[r, c] = Σ_k x[r, k] · w[k, c] + b[c]        (r < 8192, c < 4096, k < 4096),

  a sum and products of extended reals, nothing rounded.
-/
import Idealize.ShloMosaic.PureOps.Ideal
import Idealize.ShloMosaic.Lib.ValueIdx

noncomputable section

open scoped BigOperators

namespace Cert.Affine

open Idealize.ShloMosaic Idealize.ShloMosaic.ValueIdx

/-- Entry (r, c) of the affine map. -/
def entry (x : (⟨2, ![8192, 4096]⟩ : Shape).Idx → EReal) (w : (⟨2, ![4096, 4096]⟩ : Shape).Idx → EReal)
    (b : (⟨1, ![4096]⟩ : Shape).Idx → EReal) (r : Fin 8192) (c : Fin 4096) : EReal :=
  (∑ k : Fin 4096, x (ix2 r k) * w (ix2 k c)) + b (ix1 c)

/-- The whole result array. -/
def out (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => entry x w b (i 0) (i 1)

end Cert.Affine

end
-- ==== Proof.BlockProduct.lean ====
/-
  One grid point of the kernel, at the exact values. The body loads a 1024 × 4096 band of rows of the
  left matrix, a 4096 × 512 band of columns of the right matrix and a 1 × 512 piece of the bias row, and
  stores

      tile[p, q] = Σ_k rows[p, k] · cols[k, q] + bias[0, q]        (p < 1024, q < 512, k < 4096).

  At the exact values the narrowing of the rows to bf16 is the identity, the matrix unit's product into
  a zero accumulator is the plain sum over the contracted axis, the two shape casts to the same shape are
  the identity, and the broadcast of the 1 × 512 row down the 1024 rows reads its row 0.
-/
import proofs.«127883_g15444702397219_cont_week2b_1066_18_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx

/-! ## The operand indices of the tile's product: output (p, q) and contraction index k meet the rows at
    (p, k) and the columns at (k, q) -/

theorem rows_axis0 (i : S1024x512.Idx) (s : dot_S1024x4096_S4096x512_S1024x512_1_0_0_1_n_n.contr.Idx) :
    (dot_S1024x4096_S4096x512_S1024x512_1_0_0_1_n_n.lhsIdx i s 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl

theorem rows_axis1 (i : S1024x512.Idx) (s : dot_S1024x4096_S4096x512_S1024x512_1_0_0_1_n_n.contr.Idx) :
    (dot_S1024x4096_S4096x512_S1024x512_1_0_0_1_n_n.lhsIdx i s 1).val = (s ⟨0, by decide⟩).val :=
  dot_S1024x4096_S4096x512_S1024x512_1_0_0_1_n_n.lhsIdx_val_of_single rfl i s

theorem cols_axis0 (i : S1024x512.Idx) (s : dot_S1024x4096_S4096x512_S1024x512_1_0_0_1_n_n.contr.Idx) :
    (dot_S1024x4096_S4096x512_S1024x512_1_0_0_1_n_n.rhsIdx i s 0).val = (s ⟨0, by decide⟩).val :=
  dot_S1024x4096_S4096x512_S1024x512_1_0_0_1_n_n.rhsIdx_val_of_single rfl i s

theorem cols_axis1 (i : S1024x512.Idx) (s : dot_S1024x4096_S4096x512_S1024x512_1_0_0_1_n_n.contr.Idx) :
    (dot_S1024x4096_S4096x512_S1024x512_1_0_0_1_n_n.rhsIdx i s 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-- The matrix unit's product into the zero tile, read at (p, q): the sum over k of rows (p, k) times columns (k, q). -/
theorem product_apply (l : FVec Ideal S1024x4096 .bf16) (r : FVec Ideal S4096x512 .bf16) (p : Fin 1024) (q : Fin 512) :
    matmul dot_S1024x4096_S4096x512_S1024x512_1_0_0_1_n_n none l r (constant S1024x512 .f32 0x00000000#32) (ix2 p q)
      = ∑ k : Fin 4096, l (ix2 p k) * r (ix2 k q) := by
  simp only [matmul]
  rw [Ideal.matmul_constant_zero_apply, ← Equiv.sum_comp (contrEquiv1 dot_S1024x4096_S4096x512_S1024x512_1_0_0_1_n_n 4096 rfl rfl).symm]
  refine Finset.sum_congr rfl fun k _ => ?_
  have hk := contrEquiv1_symm_val dot_S1024x4096_S4096x512_S1024x512_1_0_0_1_n_n 4096 rfl rfl k
  have el : dot_S1024x4096_S4096x512_S1024x512_1_0_0_1_n_n.lhsIdx (ix2 p q) ((contrEquiv1 dot_S1024x4096_S4096x512_S1024x512_1_0_0_1_n_n 4096 rfl rfl).symm k) = ix2 p k := funext fun a => Fin.ext (by
    match a with
    | ⟨0, _⟩ => exact rows_axis0 _ _
    | ⟨1, _⟩ => exact (rows_axis1 _ _).trans hk)
  have er : dot_S1024x4096_S4096x512_S1024x512_1_0_0_1_n_n.rhsIdx (ix2 p q) ((contrEquiv1 dot_S1024x4096_S4096x512_S1024x512_1_0_0_1_n_n 4096 rfl rfl).symm k) = ix2 k q := funext fun a => Fin.ext (by
    match a with
    | ⟨0, _⟩ => exact (cols_axis0 _ _).trans hk
    | ⟨1, _⟩ => exact cols_axis1 _ _)
  rw [el, er]

/-- The 1 × 512 bias piece spread down the 1024 rows reads its row 0 at every row. -/
theorem bias_apply (v : FVec Ideal S1x512 .f32) (p : Fin 1024) (q : Fin 512) :
    broadcastTo S1024x512 v broadcasts_S1x512_S1024x512 (ix2 p q) = v (ix2 (0 : Fin 1) q) :=
  broadcastTo_apply v broadcasts_S1x512_S1024x512 (ix2 p q) (ix2 (0 : Fin 1) q) (fun a => match a with
    | ⟨0, _⟩ => by show (0 : Nat) = if (1 : Nat) = 1 then 0 else p.val; rw [if_pos rfl]
    | ⟨1, _⟩ => by show q.val = if (512 : Nat) = 1 then 0 else q.val; rw [if_neg (by decide)])

/-- The stored tile at (p, q). -/
theorem tile_apply (x0 : Vec Ideal S1024x4096 .f32) (x1 : Vec Ideal S4096x512 .bf16) (x2 : Vec Ideal S1x512 .f32)
    (p : Fin 1024) (q : Fin 512) :
    k0_pay1 (F := Ideal) x0 x1 x2 (ix2 p q) = (∑ k : Fin 4096, x0 (ix2 p k) * x1 (ix2 k q)) + x2 (ix2 (0 : Fin 1) q) := by
  unfold k0_pay1
  rw [addf_apply, shapeCast_self, shapeCast_self, product_apply, bias_apply]
  rfl

end Cert.KernelIdeal.BlockProduct

end
-- ==== Proof.ArrayAffine.lean ====
/-
  The kernel's result array is the affine map. The 8 × 8 grid tiles the 8192 × 4096 result by 1024 × 512
  tiles: point (a, b) reads rows 1024·a … 1024·a + 1023 of x (all 4096 columns), columns 512·b … 512·b + 511
  of w (all 4096 rows) and of the 1 × 4096 bias row, and writes tile (a, b). So its entry (p, q) is

      Σ_k x[1024·a + p, k] · w[k, 512·b + q] + b[512·b + q],

  the affine map's entry (1024·a + p, 512·b + q). The w the region stages is the host's narrowed copy,
  which at the exact values is w itself; the bias row it stages is the host's 1 × 4096 reshape of b, whose
  entry (0, c) is b[c]. Every index of the result lies in exactly the tile (r / 1024, c / 512).
-/
import proofs.«127883_g15444702397219_cont_week2b_1066_18_alg».proof.Proof.Gen.KernelIdeal.Value
import proofs.«127883_g15444702397219_cont_week2b_1066_18_alg».proof.Proof.BlockProduct
import proofs.«127883_g15444702397219_cont_week2b_1066_18_alg».proof.Proof.Affine
import Idealize.ShloMosaic.Lib.StableHlo.Run

noncomputable section

namespace Cert.KernelIdeal.ArrayAffine

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## What the host wrote before the region -/

/-- The narrowed copy of w the region stages is w, entry by entry. -/
theorem narrowed_eq (c : Dev nD) :
    (V m c main_v1 : S4096x4096.Idx → EReal) = m ((c : Thread nD τ).loc main_arg1) := by
  dsimp only [V, hostOps0]; after_results; rfl

/-- The bias row the region stages is b laid out as 1 × 4096. -/
theorem biasRow_eq (c : Dev nD) :
    (V m c main_v0 : S1x4096.Idx → EReal) = shapeCast S1x4096 (m ((c : Thread nD τ).loc main_arg2)) shapeCasts_S4096_S1x4096 := by
  dsimp only [V, hostOps0]; after_results; rfl

/-- Its entry (0, c) is b[c]. -/
theorem biasRow_apply (c : Dev nD) (C : Fin 4096) :
    (V m c main_v0 : S1x4096.Idx → EReal) (ix2 (0 : Fin 1) C) = m ((c : Thread nD τ).loc main_arg2) (ix1 C) := by
  rw [biasRow_eq]
  exact shapeCast_apply _ _ (ix2 (0 : Fin 1) C) (ix1 C) (by
    rw [Shape.rowMajor_val_one, Shape.rowMajor_val_two]
    show C.val = 0 * 4096 + C.val
    omega)

/-! ## The windows' block indices over the grid -/

/-- Decided over the 64 points: the rows' window moves with the tile's row index and takes every column; the
    columns' and the bias row's windows move with the tile's column index and take every row; the tile's two
    indices stay below 8. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every tile (a, b) of the 8 × 8 tiling is some point's. -/
theorem index_onto : ∀ (a : Fin 8) (b : Fin 8), ∃ t : Fin cfg0.N, win0_3.index t = ![a.val, b.val] :=
  (by decide +kernel : ∀ (a : Fin 8) (b : Fin 8), ∃ t : Fin grid0.N, win0_3.index t = ![a.val, b.val])

/-! ## One tile is a tile of the affine map -/

/-- A stored tile whose loaded rows, columns and bias piece are rows R…, columns C… of three arrays is the affine
    map of those arrays at (R, C). -/
theorem tile_eq_entry (X : S8192x4096.Idx → EReal) (W : S4096x4096.Idx → EReal) (B : S4096.Idx → EReal)
    (x0 : Vec Ideal S1024x4096 .f32) (x1 : Vec Ideal S4096x512 .bf16) (x2 : Vec Ideal S1x512 .f32)
    (R : Fin 8192) (C : Fin 4096) (p : Fin 1024) (q : Fin 512)
    (h0 : ∀ k : Fin 4096, x0 (ix2 p k) = X (ix2 R k)) (h1 : ∀ k : Fin 4096, x1 (ix2 k q) = W (ix2 k C))
    (h2 : x2 (ix2 (0 : Fin 1) q) = B (ix1 C)) :
    k0_pay1 (F := Ideal) x0 x1 x2 (ix2 p q) = Cert.Affine.entry X W B R C := by
  rw [BlockProduct.tile_apply, h2]
  unfold Cert.Affine.entry
  exact congrArg (· + B (ix1 C)) (Finset.sum_congr rfl fun k _ => by rw [h0 k, h1 k])

/-- What point t writes back is tile t of the affine map of the three arguments. -/
theorem flushed_eq (c : Dev nD) (t : Fin cfg0.N) :
    (dats m 0 c).flushed 3 t = ((cfg0.win 3).blk t).view.read (Elt Ideal)
      (Cert.Affine.out (m ((c : Thread nD τ).loc main_arg0)) (m ((c : Thread nD τ).loc main_arg1)) (m ((c : Thread nD τ).loc main_arg2))) := by
  rw [Value.flushed3]
  unfold out0_3
  rw [View.canon_unit_zero zero_offsets]
  simp only [View.ld_unit_zero (S := S1024x4096) zero_offsets, View.ld_unit_zero (S := S4096x512) zero_offsets,
    View.ld_unit_zero (S := S1x512) zero_offsets]
  obtain ⟨e00, e01, e10, e11, e20, e21, b0, b1⟩ := index_facts t
  funext j
  obtain ⟨p, q, rfl⟩ : ∃ (p : Fin 1024) (q : Fin 512), j = ix2 p q := ⟨j 0, j 1, eq_ix2 j⟩
  have hc : win0_3.index t (1 : Fin 2) * 512 + 1 * q.val < 4096 := by have := q.isLt; omega
  show k0_pay1 (F := Ideal) (iblk m c 0 t) (iblk m c 1 t) (iblk m c 2 t) (ix2 p q)
      = Cert.Affine.entry _ _ _ ((((cfg0.win 3).blk t).view.emb (ix2 p q)) 0) ((((cfg0.win 3).blk t).view.emb (ix2 p q)) 1)
  refine tile_eq_entry _ _ _ (iblk m c 0 t) (iblk m c 1 t) (iblk m c 2 t) _ _ p q (fun k => ?_) (fun k => ?_) ?_
  · -- the rows' block at (p, k) is x at (1024·a + p, k)
    refine (show iblk m c 0 t (ix2 p k) = V m c main_arg0 (((cfg0.win 0).blk t).view.emb (ix2 p k)) from rfl).trans ?_
    rw [V_main_arg0]
    refine congrArg _ (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 4096 + 1 * k.val = k.val; omega
  · -- the columns' block at (k, q) is w at (k, 512·b + q)
    refine (show iblk m c 1 t (ix2 k q) = (V m c main_v1 : S4096x4096.Idx → EReal) (((cfg0.win 1).blk t).view.emb (ix2 k q)) from rfl).trans ?_
    rw [narrowed_eq]
    refine congrArg _ (funext fun a => Fin.ext ?_)
    match a with
    | ⟨0, _⟩ => show win0_1.index t (0 : Fin 2) * 4096 + 1 * k.val = k.val; omega
    | ⟨1, _⟩ => show win0_1.index t (1 : Fin 2) * 512 + 1 * q.val = win0_3.index t (1 : Fin 2) * 512 + 1 * q.val; omega
  · -- the bias piece at (0, q) is b at 512·b + q
    refine (show iblk m c 2 t (ix2 (0 : Fin 1) q) = (V m c main_v0 : S1x4096.Idx → EReal) (((cfg0.win 2).blk t).view.emb (ix2 (0 : Fin 1) q)) from rfl).trans ?_
    have e : ((cfg0.win 2).blk t).view.emb (ix2 (0 : Fin 1) q) = ix2 (0 : Fin 1) (⟨win0_3.index t (1 : Fin 2) * 512 + 1 * q.val, hc⟩ : Fin 4096) :=
      funext fun a => Fin.ext (by
        match a with
        | ⟨0, _⟩ => show win0_2.index t (0 : Fin 2) * 1 + 1 * 0 = 0; omega
        | ⟨1, _⟩ => show win0_2.index t (1 : Fin 2) * 512 + 1 * q.val = win0_3.index t (1 : Fin 2) * 512 + 1 * q.val; omega)
    rw [e, biasRow_apply]
    exact congrArg _ (congrArg ix1 (Fin.ext rfl))

/-! ## The tiles cover the result -/

/-- An index of the result is in point t's tile iff each coordinate is in the tile's range on its axis. -/
theorem mem_tile (t : Fin cfg0.N) (i : S8192x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v2).slice (win0_3.rect t)).set ↔ _
  rw [View.set_slice_whole, Rect.mem_set_unit]
  exact Iff.rfl

/-- Index (r, c) lies in the tile (r / 1024, c / 512), which some point writes back. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := index_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_tile]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The result array after the run is the affine map of the three arguments. -/
theorem final (c : Dev nD) :
    (dats m 0 c).arrAt 3 cfg0.N
      = Cert.Affine.out (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the kernel's program terminates with the result at the affine map of the
    arguments and the arguments unchanged. -/
theorem run : θ_run defs (onTc (τ := τ) (main (F := Ideal))) ⟨m, fun _ => 0, ρ⟩ fun r => ∀ c : Dev nD,
      r.2.mem ((c : Thread nD τ).loc main_v2)
        = Cert.Affine.out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayAffine

end
-- ==== Proof.RefAffine.lean ====
/-
  The reference is the affine map. It transposes both matrices, multiplies wᵀ (4096 × 4096) by xᵀ
  (4096 × 8192), transposes the product back and adds the bias row spread over the 8192 rows:

      ((wᵀ · xᵀ)ᵀ)[r, c] = (wᵀ · xᵀ)[c, r] = Σ_k wᵀ[c, k] · xᵀ[k, r] = Σ_k w[k, c] · x[r, k],

  which is Σ_k x[r, k] · w[k, c] term by term, the product of extended reals being commutative.
-/
import proofs.«127883_g15444702397219_cont_week2b_1066_18_alg».proof.Proof.Gen.ReferenceIdeal.Read
import proofs.«127883_g15444702397219_cont_week2b_1066_18_alg».proof.Proof.Affine

noncomputable section

namespace Cert.ReferenceIdeal.RefAffine

open Cert.ReferenceIdeal Cert.ReferenceIdeal.Gen Cert.ReferenceIdeal.Read Idealize.ShloMosaic Idealize.ShloMosaic.ValueIdx

/-- The reference's last stage, at the exact values, is the affine map of the three arguments. -/
theorem stage_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v6 (F := Ideal) x0 x1 x2 = Cert.Affine.out x0 x1 x2 := by
  funext i
  -- wᵀ at (c, k) is w at (k, c); xᵀ at (k, r) is x at (r, k); the bias row at (0, c) is b at c
  have ew : ∀ k : Fin 4096, idx_main_v0 (lidx_main_v2 (idx_main_v3 i) k) = ix2 k (i 1) := fun k =>
    funext fun a => Fin.ext (by match a with | ⟨0, _⟩ => rfl | ⟨1, _⟩ => rfl)
  have ex : ∀ k : Fin 4096, idx_main_v1 (ridx_main_v2 (idx_main_v3 i) k) = ix2 (i 0) k := fun k =>
    funext fun a => Fin.ext (by match a with | ⟨0, _⟩ => rfl | ⟨1, _⟩ => rfl)
  have eb : idx_main_v4 (idx_main_v5 i) = ix1 (i 1) :=
    funext fun a => Fin.ext (by match a with | ⟨0, _⟩ => rfl)
  rw [val_main_v6_apply, val_main_v3_apply, val_main_v2_apply, val_main_v5_apply, val_main_v4_apply]
  simp only [val_main_v0_apply, val_main_v1_apply, ew, ex, eb]
  show (∑ k : Fin 4096, x1 (ix2 k (i 1)) * x0 (ix2 (i 0) k)) + x2 (ix1 (i 1)) = _
  unfold Cert.Affine.out Cert.Affine.entry
  exact congrArg (· + x2 (ix1 (i 1))) (Finset.sum_congr rfl fun k _ => mul_comm _ _)

end Cert.ReferenceIdeal.RefAffine

end
-- ==== Proof.lean ====
/-
  The claim: a tiled matrix product with bias against the jnp reference, over the extended reals.

  The kernel computes out = x · w + b for x : 8192 × 4096, w : 4096 × 4096, b : 4096, one 1024 × 512 tile of
  the result per point of an 8 × 8 grid, each tile contracting the whole inner axis in one product; it narrows
  x (in the body) and w (on the host) to bf16 before the product. The reference computes (wᵀ · xᵀ)ᵀ + b.

  At the exact values a change of float format is the identity, so the kernel's entry (r, c) is
  Σ_k x[r, k] · w[k, c] + b[c] (Proof/BlockProduct.lean for one tile, Proof/ArrayAffine.lean for the array the
  tiles cover), and the reference's is Σ_k w[k, c] · x[r, k] + b[c] (Proof/RefAffine.lean): equal term by
  term by commutativity of the product, which holds at every extended real, the infinities included, so
  the finiteness of the inputs is never used. The three frames are the generated ones (the reference's is
  its generated run with the result dropped); the idealization rewrote nothing, so the fourth conjunct is trivial.
-/
import proofs.«127883_g15444702397219_cont_week2b_1066_18_alg».proof.Defs
import proofs.«127883_g15444702397219_cont_week2b_1066_18_alg».proof.Proof.Gen.Kernel.Frame
import proofs.«127883_g15444702397219_cont_week2b_1066_18_alg».proof.Proof.Gen.KernelIdeal.Frame
import proofs.«127883_g15444702397219_cont_week2b_1066_18_alg».proof.Proof.Gen.KernelIdeal.Value
import proofs.«127883_g15444702397219_cont_week2b_1066_18_alg».proof.Proof.Gen.ReferenceIdeal.Run
import proofs.«127883_g15444702397219_cont_week2b_1066_18_alg».proof.Proof.Gen.ReferenceIdeal.Read
import proofs.«127883_g15444702397219_cont_week2b_1066_18_alg».proof.Proof.Gen.Pre_finite_inputs
import proofs.«127883_g15444702397219_cont_week2b_1066_18_alg».proof.Proof.Affine
import proofs.«127883_g15444702397219_cont_week2b_1066_18_alg».proof.Proof.ArrayAffine
import proofs.«127883_g15444702397219_cont_week2b_1066_18_alg».proof.Proof.RefAffine

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the affine map of the (agreeing) arguments. -/
theorem algebraic : Cert.algebraic_KernelIdeal_ReferenceIdeal := by
  intro m ρ m' ρ' _ hagree
  refine ⟨fun c => Cert.Affine.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayAffine.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.ReferenceIdeal.RefAffine.stage_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
